-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S200000x256 .f32) (main_arg1 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Kernel.lean ====
abbrev S200000x256 : Shape := ⟨2, ![200000, 256]⟩
abbrev S256 : Shape := ⟨1, ![256]⟩
abbrev S_ : Shape := ⟨0, ![]⟩
abbrev S1x256 : Shape := ⟨2, ![1, 256]⟩
abbrev S1x1 : Shape := ⟨2, ![1, 1]⟩
abbrev S8000x256 : Shape := ⟨2, ![8000, 256]⟩
abbrev S8000 : Shape := ⟨1, ![8000]⟩
abbrev S8000x1 : Shape := ⟨2, ![8000, 1]⟩
abbrev S1 : Shape := ⟨1, ![1]⟩

abbrev nBuf : Space → Nat
  | .hbm => 25
  | .vmem => 5
  | .smem => 0
  | _ => 0

abbrev bufTy : (tb : Table) → Fin (tcTables nBuf tb) → BufTy
  | .hbm, ⟨0, _⟩ => ⟨S200000x256, .f32⟩
  | .hbm, ⟨1, _⟩ => ⟨S256, .f32⟩
  | .hbm, ⟨2, _⟩ => ⟨S_, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S1x256, .f32⟩
  | .hbm, ⟨17, _⟩ => ⟨S1x1, .f32⟩
  | .hbm, ⟨18, _⟩ => ⟨S_, .f32⟩
  | .hbm, ⟨19, _⟩ => ⟨S256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8000x256, .f32⟩
  | .local _ .vmem, ⟨1, _⟩ => ⟨S8000x256, .f32⟩
  | .local _ .vmem, ⟨2, _⟩ => ⟨S1x256, .f32⟩
  | .local _ .vmem, ⟨3, _⟩ => ⟨S1x1, .f32⟩
  | .local _ .vmem, ⟨4, _⟩ => ⟨S1x1, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v42 : BitVec 1 := Scalar.cmpi .eq arg0 c24_i32
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S_S256 : S_.BroadcastsInDim S256 (![] : Fin 0 → Fin S256.rank)
  shapeCasts_S256_S1x256 : S256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8000x256_S8000x256_0_0 : ∀ a, (![0, 0] : Fin 2 → Nat) a + S8000x256.size a ≤ S8000x256.size a
  h_S8000x256 : 0 < S8000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  natLt_1_32 : 1 < 32
  reduces_S8000x256_S8000 : S8000x256.Reduces [1] S8000
  shapeCasts_S8000_S8000x1 : S8000.ShapeCasts S8000x1
  broadcasts_S1x256_S8000x256 : S1x256.Broadcasts S8000x256
  broadcasts_S8000x1_S8000x256 : S8000x1.Broadcasts S8000x256
  reduces_S8000x1_S1 : S8000x1.Reduces [0] S1
  shapeCasts_S1_S1x1 : S1.ShapeCasts S1x1
  shapeCasts_S1x1_S_ : S1x1.ShapeCasts S_
  reducesTo_S256_S_d0 : S256.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S200000x256.size a
  hwx0_0 : ∀ i : grid0.Coords, EltTy.bits .f32 = 32 ∨ (Rect.block (s := S200000x256) S8000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S200000x256 : Shape := ⟨2, ![200000, 256]⟩
abbrev S256 : Shape := ⟨1, ![256]⟩
abbrev S_ : Shape := ⟨0, ![]⟩
abbrev S200000 : Shape := ⟨1, ![200000]⟩
abbrev S1x256 : Shape := ⟨2, ![1, 256]⟩
abbrev S200000x1 : Shape := ⟨2, ![200000, 1]⟩

abbrev nBuf : Space → Nat
  | .hbm => 66
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S256, .f32⟩
  | .hbm, ⟨2, _⟩ => ⟨S_, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S200000x256, .f32⟩
  | .hbm, ⟨18, _⟩ => ⟨S200000x256, .i1⟩
  | .hbm, ⟨19, _⟩ => ⟨S200000x256, .i32⟩
  | .hbm, ⟨20, _⟩ => ⟨S_, .i32⟩
  | .hbm, ⟨21, _⟩ => ⟨S200000, .i32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .i1⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S1x256, .f32⟩
  | .hbm, ⟨31, _⟩ => ⟨S200000x256, .f32⟩
  | .hbm, ⟨32, _⟩ => ⟨S200000x256, .f32⟩
  | .hbm, ⟨33, _⟩ => ⟨S_, .f32⟩
  | .hbm, ⟨34, _⟩ => ⟨S_, .f32⟩
  | .hbm, ⟨35, _⟩ => ⟨S200000x256, .f32⟩
  | .hbm, ⟨36, _⟩ => ⟨S200000x256, .f32⟩
  | .hbm, ⟨37, _⟩ => ⟨S_, .f32⟩
  | .hbm, ⟨38, _⟩ => ⟨S200000, .f32⟩
  | .hbm, ⟨39, _⟩ => ⟨S200000, .f32⟩
  | .hbm, ⟨40, _⟩ => ⟨S200000x1, .f32⟩
  | .hbm, ⟨41, _⟩ => ⟨S200000x256, .f32⟩
  | .hbm, ⟨42, _⟩ => ⟨S200000x256, .f32⟩
  | .hbm, ⟨43, _⟩ => ⟨S_, .f32⟩
  | .hbm, ⟨44, _⟩ => ⟨S_, .f32⟩
  | .hbm, ⟨45, _⟩ => ⟨S200000x256, .f32⟩
  | .hbm, ⟨46, _⟩ => ⟨S200000x256, .f32⟩
  | .hbm, ⟨47, _⟩ => ⟨S200000x256, .f32⟩
  | .hbm, ⟨48, _⟩ => ⟨S_, .f32⟩
  | .hbm, ⟨49, _⟩ => ⟨S200000, .f32⟩
  | .hbm, ⟨50, _⟩ => ⟨S200000, .f32⟩
  | .hbm, ⟨51, _⟩ => ⟨S_, .f32⟩
  | .hbm, ⟨52, _⟩ => ⟨S200000, .f32⟩
  | .hbm, ⟨53, _⟩ => ⟨S200000, .i1⟩
  | .hbm, ⟨54, _⟩ => ⟨S_, .f32⟩
  | .hbm, ⟨55, _⟩ => ⟨S_, .f32⟩
  | .hbm, ⟨56, _⟩ => ⟨S200000, .f32⟩
  | .hbm, ⟨57, _⟩ => ⟨S200000, .f32⟩
  | .hbm, ⟨58, _⟩ => ⟨S_, .f32⟩
  | .hbm, ⟨59, _⟩ => ⟨S_, .f32⟩
  | .hbm, ⟨60, _⟩ => ⟨S256, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_call2_v0 : Ref sig .tc := ⟨.hbm, 44, rfl⟩
abbrev main_call2_v1 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_call3_v0 : Ref sig .tc := ⟨.hbm, 55, rfl⟩
abbrev main_call3_v1 : Ref sig .tc := ⟨.hbm, 56, rfl⟩
abbrev main_v33 : Ref sig .tc := ⟨.hbm, 57, rfl⟩
abbrev main_cst_12 : Ref sig .tc := ⟨.hbm, 58, rfl⟩
abbrev main_v34 : Ref sig .tc := ⟨.hbm, 59, rfl⟩
abbrev main_v35 : Ref sig .tc := ⟨.hbm, 60, rfl⟩
abbrev main_cst_13 : Ref sig .tc := ⟨.hbm, 61, rfl⟩
abbrev main_v36 : Ref sig .tc := ⟨.hbm, 62, rfl⟩
abbrev main_cst_14 : Ref sig .tc := ⟨.hbm, 63, rfl⟩
abbrev main_v37 : Ref sig .tc := ⟨.hbm, 64, rfl⟩
abbrev main_v38 : Ref sig .tc := ⟨.hbm, 65, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S_S200000x256 : S_.BroadcastsInDim S200000x256 (![] : Fin 0 → Fin S200000x256.rank)
  natLt_1_32 : 1 < 32
  reducesTo_S200000x256_S200000_d1 : S200000x256.ReducesTo [1] S200000
  h_S_ : 0 < S_.numel
  bcast_S_S200000 : S_.BroadcastsInDim S200000 (![] : Fin 0 → Fin S200000.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S200000_S200000x1_0 : S200000.BroadcastsInDim S200000x1 (![0] : Fin 1 → Fin S200000x1.rank)
  bcast_S200000x1_S200000x256_0_1 : S200000x1.BroadcastsInDim S200000x256 (![0, 1] : Fin 2 → Fin S200000x256.rank)
  reducesTo_S200000_S_d0 : S200000.ReducesTo [0] S_
  reducesTo_S256_S_d0 : S256.ReducesTo [0] S_

variable [Facts₀]

class Facts : Prop extends Facts₀ where

variable [Facts]
-- ==== Proof.Pieces.lean ====
/-
  What one run of the body leaves behind, as values.

  The body keeps its running sum in a 1 × 1 scratch cell carried from grid point to grid point.  At the first point
  it stores a zero there, reads it back, and stores zero plus the tile's sum; at every later point it reads what the
  point before left and stores that plus the tile's sum; at the last point it also copies the cell into the output
  block.  In each case the cell (and, at the last point, the output block) ends holding the body's payload — the
  stored value as a pure function of the tile `x0`, the weight row `x1` and the accumulator found — because the one
  covering store's value is read back whole.
-/
import proofs.«149009_j65575560675889_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen
open Idealize.ShloMosaic.Pipeline (Dat)

variable {F : FTy → Type} [FloatOps F]

/-- The zero offsets of every access of the body, as a constant function. -/
theorem hz : (![0, 0] : Fin 2 → Nat) = fun _ => 0 := funext fun a => by fin_cases a <;> rfl

/-- A middle point: the scratch cell ends at the payload over the accumulator `xs0` found there. -/
theorem sout_B (c : Dev nD) (i : grid0.Coords) (a1 : Memref sig .tc .vmem S8000x256 .f32) (h1 : a1.IsWhole) (a2 : Memref sig .tc .vmem S1x256 .f32) (h2 : a2.IsWhole) (a3 : Memref sig .tc .vmem S1x1 .f32) (h3 : a3.IsWhole) (a4 : Memref sig .tc .vmem S1x1 .f32) (h4 : a4.IsWhole) (hc0 : ¬cond0_0 i) (hc1 : ¬cond0_1 i)
    (x0 : Vec F S8000x256 .f32) (x1 : Vec F S1x256 .f32) (xs0 : Vec F S1x1 .f32) :
    sout0_B_0 c i a1 h1 a2 h2 a3 h3 a4 h4 hc0 hc1 x0 x1 xs0 = k0_pay1 (k0_pay3 x0 x1 xs0) := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S8000x256) hz,
    View.ld_unit_zero (S := S1x256) hz, View.ld_unit_zero (S := S1x1) hz]

/-- The first point: the scratch cell is reset, so it ends at the payload over the zero just stored. -/
theorem sout_A (c : Dev nD) (i : grid0.Coords) (a1 : Memref sig .tc .vmem S8000x256 .f32) (h1 : a1.IsWhole) (a2 : Memref sig .tc .vmem S1x256 .f32) (h2 : a2.IsWhole) (a3 : Memref sig .tc .vmem S1x1 .f32) (h3 : a3.IsWhole) (a4 : Memref sig .tc .vmem S1x1 .f32) (h4 : a4.IsWhole) (hc0 : cond0_0 i) (hc1 : ¬cond0_1 i)
    (x0 : Vec F S8000x256 .f32) (x1 : Vec F S1x256 .f32) :
    sout0_A_0 c i a1 h1 a2 h2 a3 h3 a4 h4 hc0 hc1 x0 x1 = k0_pay1 (k0_pay3 x0 x1 k0_pay2) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz]
  simp only [View.readAt_eq_ld, h1.read_unread, h2.read_unread, h4.read_unread, View.ld_unit_zero (S := S8000x256) hz,
    View.ld_unit_zero (S := S1x256) hz, View.ld_unit_zero (S := S1x1) hz, View.readCov_unit_zero (S := S1x1) _ hz]

/-- The last point: the output block is stored with the scratch cell's new contents, the payload over `xs0`. -/
theorem out_C (c : Dev nD) (i : grid0.Coords) (a1 : Memref sig .tc .vmem S8000x256 .f32) (h1 : a1.IsWhole) (a2 : Memref sig .tc .vmem S1x256 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 : Vec F S8000x256 .f32) (x1 : Vec F S1x256 .f32) (xs0 : Vec F S1x1 .f32) :
    out0_C_2 c i a1 h1 a2 h2 a3 h3 a4 h4 hc0 hc1 x0 x1 xs0 = k0_pay1 (k0_pay3 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S8000x256) hz,
    View.ld_unit_zero (S := S1x256) hz, View.ld_unit_zero (S := S1x1) hz, View.readCov_unit_zero (S := S1x1) _ hz]

/-- The last point: the scratch cell ends at the same payload. -/
theorem sout_C (c : Dev nD) (i : grid0.Coords) (a1 : Memref sig .tc .vmem S8000x256 .f32) (h1 : a1.IsWhole) (a2 : Memref sig .tc .vmem S1x256 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 : Vec F S8000x256 .f32) (x1 : Vec F S1x256 .f32) (xs0 : Vec F S1x1 .f32) :
    sout0_C_0 c i a1 h1 a2 h2 a3 h3 a4 h4 hc0 hc1 x0 x1 xs0 = k0_pay1 (k0_pay3 x0 x1 xs0) := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S8000x256) hz,
    View.ld_unit_zero (S := S1x256) hz, View.ld_unit_zero (S := S1x1) hz, View.readCov_unit_zero (S := S1x1) _ hz]

end Cert.KernelIdeal.Pieces

end
-- ==== Proof.LabelSpread.lean ====
/-
  The per-row statistic both programs compute, and the arithmetic that joins their two spellings.

  A row `y` of 256 labels is read against a weight row `a`.  A label equal to `-1` is absent; the others are
  present.  With `c` the number of present labels, `z k = y k * a k` on the present ones and `0` elsewhere,
  `mu = (∑ z) / max-safe c`, the statistic is `(∑ (z k - mu)^2 over the present k) / c` when `c > 0` and `0`
  otherwise (`spread`).  Every operation is the extended-real one, so nothing here needs finiteness.

  Two spellings of the count meet here: a float sum of the widened presence bits (each bit converted first), and
  the conversion of an integer sum of the widened bits (converted last).  Both are the cardinality of the set of
  present labels (`sum_widened_bits`, `word_count`).

  The total over 200000 rows is taken in 25 tiles of 8000 rows: a sum over `Fin (a * b)` is the double sum over
  `Fin a` and `Fin b` (`sum_rows_by_tile`), row `r` of tile `t` being row `r + b * t`.
-/
import Idealize.ShloMosaic.PureOps.Ideal
import Idealize.ShloMosaic.PureOps.Ideal.Laws
import Idealize.ShloMosaic.Lib.StableHlo.Predicate

noncomputable section

namespace Cert.LabelSpread

open Idealize.ShloMosaic

/-- The label that marks an absent entry: the f32 word of `-1.0`. -/
abbrev absent : EReal := Ideal.ofBits .f32 0xBF800000#32

/-- The f32 word of `1.0`, the divisor of a row with no present label. -/
abbrev unit : EReal := Ideal.ofBits .f32 0x3F800000#32

/-- The presence bit of a label: set when the label differs from `-1`. -/
def present (y : EReal) : BitVec 1 := Ideal.cmp .one y absent

/-- How many labels of a row are present. -/
def labelled {n : ℕ} (y : Fin n → EReal) : ℕ := (Finset.univ.filter fun k => present (y k) = 1#1).card

/-- The same number as an extended real. -/
def count {n : ℕ} (y : Fin n → EReal) : EReal := ((labelled y : ℝ) : EReal)

/-- The masked variance-like statistic of one row `y` under weights `a`, from a given count `c`. -/
def spreadOf {n : ℕ} (c : EReal) (y a : Fin n → EReal) : EReal :=
  Scalar.select (Ideal.cmp .ogt c 0)
    (Ideal.div
      (∑ k, Scalar.select (present (y k))
              (Scalar.select (present (y k)) (y k * a k) 0
                - Ideal.div (∑ l, Scalar.select (present (y l)) (y l * a l) 0) (Scalar.select (Ideal.cmp .ogt c 0) c unit)) 0
            * Scalar.select (present (y k))
              (Scalar.select (present (y k)) (y k * a k) 0
                - Ideal.div (∑ l, Scalar.select (present (y l)) (y l * a l) 0) (Scalar.select (Ideal.cmp .ogt c 0) c unit)) 0)
      (Scalar.select (Ideal.cmp .ogt c 0) c unit))
    0

/-- The statistic of a row, the count being the number of its present labels. -/
def spread {n : ℕ} (y a : Fin n → EReal) : EReal := spreadOf (count y) y a

/-! ## The count, spelt two ways -/

/-- The coercion of a finite real sum is the sum of the coercions. -/
theorem coe_sum {ι : Type*} (s : Finset ι) (f : ι → ℝ) : ((∑ i ∈ s, f i : ℝ) : EReal) = ∑ i ∈ s, (f i : EReal) := by
  induction s using Finset.cons_induction with
  | empty => simp
  | cons a S ha ih => rw [Finset.sum_cons, Finset.sum_cons, EReal.coe_add, ih]

/-- A widened bit read as a signed integer is the bit's value. -/
theorem toInt_widened (b : BitVec 1) : (b.setWidth 32).toInt = if b = 1#1 then 1 else 0 := by
  rcases BitVec.eq_zero_or_eq_one b with rfl | rfl <;> decide

/-- CONVERTED FIRST: the float sum of the widened bits, each converted to a float, is the number of set bits. -/
theorem sum_widened_bits {n : ℕ} (b : Fin n → BitVec 1) :
    ∑ k, ((((b k).setWidth 32).toInt : ℝ) : EReal) = (((Finset.univ.filter fun k => b k = 1#1).card : ℝ) : EReal) := by
  rw [Finset.card_filter, Nat.cast_sum, coe_sum]
  refine Finset.sum_congr rfl fun k _ => ?_
  rw [toInt_widened]
  split_ifs <;> simp

/-- CONVERTED LAST: a 32-bit word whose value is a small natural number converts to that number. -/
theorem word_count (w : BitVec 32) (n : ℕ) (hw : w.toNat = n) (hn : n < 2 ^ 31) :
    ((w.toInt : ℝ) : EReal) = ((n : ℝ) : EReal) := by
  rw [StableHlo.Predicate.toInt_eq_toNat_of_lt (by omega), hw, Int.cast_natCast]

/-! ## The rows, tile by tile -/

/-- A sum over `a * b` rows is the sum over `a` tiles of the sum over each tile's `b` rows. -/
theorem sum_rows_by_tile {M : Type*} [AddCommMonoid M] (a b : ℕ) (f : Fin (a * b) → M) :
    ∑ n, f n = ∑ t : Fin a, ∑ r : Fin b, f (finProdFinEquiv (t, r)) := by
  rw [← Equiv.sum_comp finProdFinEquiv f, Fintype.sum_prod_type]

end Cert.LabelSpread

end
-- ==== Proof.Layout.lean ====
/-
  Keepdims layouts and one-axis sums read at an index, over literal rectangle shapes.

  A row-wise sum with `keepdims` is a reduction along axis 1 followed by a cast of the length-`n` result to an
  `n × 1` column; broadcasting that column back over `m` columns reads it at its row; a `1 × m` row broadcast
  down `n` rows is read at its column; the sum of an `n × 1` column along axis 0, cast to `1 × 1`, is the sum of
  the column's entries.  Each is stated at explicit coordinates.
-/
import Idealize.ShloMosaic.Lib.Pipeline.Value
import Idealize.ShloMosaic.Lib.ValueIdx
import Idealize.ShloMosaic.PureOps.Ideal.Laws

noncomputable section

namespace Cert.LabelSpread.Layout

open Idealize.ShloMosaic Idealize.ShloMosaic.ValueIdx

variable {α : Type}

/-- A length-`n` vector cast to an `n × 1` column, read at row `r`. -/
theorem col_apply {n : ℕ} (v : (⟨1, ![n]⟩ : Shape).Idx → α) (h : (⟨1, ![n]⟩ : Shape).ShapeCasts ⟨2, ![n, 1]⟩) (r : Fin n)
    (z : Fin 1) : shapeCast ⟨2, ![n, 1]⟩ v h (ix2 r z) = v (ix1 r) := by
  refine shapeCast_apply v h (ix2 r z) (ix1 r) ?_
  rw [Shape.rowMajor_val_one, Shape.rowMajor_val_two]
  show r.val = r.val * 1 + z.val
  omega

/-- An `n × 1` column broadcast over `m` columns, read at `(r, k)`: the column's entry of row `r`. -/
theorem bcast_col_apply {n m : ℕ} (v : (⟨2, ![n, 1]⟩ : Shape).Idx → α) (h : (⟨2, ![n, 1]⟩ : Shape).Broadcasts ⟨2, ![n, m]⟩)
    (r : Fin n) (k : Fin m) : broadcastTo ⟨2, ![n, m]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    split
    · have := r.isLt; omega
    · rfl
  | ⟨1, _⟩ => rfl

variable {φ : FTy}

/-- The sum along axis 1 of an `n × m` rectangle, at row `r`: the sum of that row's `m` entries. -/
theorem rowsum_apply {n m : ℕ} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) := by
  rw [Ideal.multiReduction_add_single]
  refine Finset.sum_congr rfl fun k _ => congrArg src (funext fun c => Fin.ext ?_)
  match c with
  | ⟨0, _⟩ => rfl
  | ⟨1, _⟩ => rfl

/-- The sum along axis 0 of an `n × 1` column, at its one index: the sum of the column's `n` entries. -/
theorem colsum_apply {n : ℕ} (src : FVec Ideal ⟨2, ![n, 1]⟩ φ) (acc : BitVec φ.bits)
    (h : (⟨2, ![n, 1]⟩ : Shape).Reduces [0] ⟨1, ![1]⟩) (hφ : FKind.Formats φ) (hacc : acc = FKind.add.neutral φ hφ) (z : Fin 1) :
    multiReduction .add [0] ⟨1, ![1]⟩ src acc h hφ hacc (ix1 z) = ∑ r : Fin n, src (ix2 r (0 : Fin 1)) := by
  rw [Ideal.multiReduction_add_single]
  refine Finset.sum_congr rfl fun r _ => congrArg src (funext fun c => Fin.ext ?_)
  match c with
  | ⟨0, _⟩ => rfl
  | ⟨1, _⟩ =>
    show (z : ℕ) = 0
    omega

end Cert.LabelSpread.Layout

end
-- ==== Proof.KernelRow.lean ====
/-
  The kernel body's arithmetic, read at the one index of its 1 × 1 result.

  One grid point holds a tile of 8000 rows of 256 labels and the row of 256 weights.  The body forms, per row, the
  presence mask `y ≠ -1`, the count of present labels (a float sum of the converted mask bits), the masked products
  `y * a`, their mean over the present labels, the masked deviations from it and the mean of their squares — the row
  statistic `spread` —, then sums the 8000 per-row values down the column and adds the sum to the accumulator it
  loaded.  Read at index (0, 0) this is `acc + ∑ r, spread (row r) a`: every layout step (a row sum cast to a column,
  a column broadcast back over the row, the weight row broadcast down the rows) is read at explicit coordinates, and
  the float count is the number of present labels.
-/
import proofs.«149009_j65575560675889_1_alg».proof.Proof.Gen.KernelIdeal.Skeleton
import proofs.«149009_j65575560675889_1_alg».proof.Proof.LabelSpread
import proofs.«149009_j65575560675889_1_alg».proof.Proof.Layout
import Idealize.ShloMosaic.Lib.ValueLayout

noncomputable section

namespace Cert.KernelIdeal.Tile

open Idealize.ShloMosaic Idealize.ShloMosaic.ValueIdx Cert.KernelIdeal Cert.KernelIdeal.Gen Cert.LabelSpread Cert.LabelSpread.Layout

/-- THE BODY'S ARITHMETIC AT ITS ONE INDEX. With `x0` the tile's 8000 rows of labels, `x1` the weight row and `v37` the
    accumulator as the body finds it, the value the body stores back is the accumulator plus the sum over the tile's
    rows of the row statistic `spread`: each of the three row-wise sums with `keepdims` is a sum over the row's 256
    entries, the column of counts is read at its row, the float sum of the converted presence bits is the number of
    present labels, and the final sum down the column of 8000 per-row values is their sum. -/
theorem pay3_at (x0 : Vec Ideal S8000x256 .f32) (x1 : Vec Ideal S1x256 .f32) (v37 : Vec Ideal S1x1 .f32) :
    k0_pay1 (F := Ideal) (k0_pay3 (F := Ideal) x0 x1 v37) (ix2 0 0)
      = v37 (ix2 0 0) + ∑ r : Fin 8000, spread (fun k => x0 (ix2 r k)) (fun k => x1 (ix2 0 k)) := by
  unfold k0_pay1 k0_pay3
  dsimp only
  rw [shapeCast_self]
  refine congrArg (v37 (ix2 0 0) + ·) ?_
  rw [col_apply]
  erw [colsum_apply]
  refine Finset.sum_congr rfl fun r _ => ?_
  simp only [select_apply, cmpf_apply, broadcast_apply, divf_apply, mulf_apply, subf_apply, col_apply]
  erw [rowsum_apply, rowsum_apply]
  simp only [select_apply, cmpf_apply, broadcast_apply, divf_apply, mulf_apply, subf_apply, sitofp_apply, extui_apply,
    col_apply, bcast_col_apply, broadcastTo_1b_ab_apply, shapeCast_self]
  erw [rowsum_apply]
  simp only [select_apply, cmpf_apply, broadcast_apply, divf_apply, mulf_apply, subf_apply, sitofp_apply, extui_apply,
    col_apply, bcast_col_apply, broadcastTo_1b_ab_apply, shapeCast_self]
  erw [rowsum_apply]
  simp only [select_apply, cmpf_apply, broadcast_apply, sitofp_apply, extui_apply]
  have hC : count (fun k => x0 (ix2 r k))
      = ∑ k, FloatOps.sitofp (F := Ideal) .f32 (BitVec.setWidth 32 (FloatOps.cmpf (F := Ideal) .one (x0 (ix2 r k)) (FloatOps.ofBits .f32 0xBF800000#32))) :=
    (sum_widened_bits _).symm
  unfold spread
  rw [hC]
  unfold spreadOf present
  simp only [Ideal.ofBits_def, Ideal.ofBits_zero_f32]
  rfl

end Cert.KernelIdeal.Tile

end
-- ==== Proof.KernelTotal.lean ====
/-
  The kernel's result as one closed term of its arguments.

  The grid has 25 points; point `t` sees rows `8000 t … 8000 t + 7999` of the 200000 × 256 label array (row `r` of the
  tile is row `r + 8000 t`) and the same weight row.  By the body's arithmetic the carried accumulator after point `n`
  is the sum of the tile sums `0 … n` (induction on the point: the first point starts from the zero it stores, each
  later point adds its tile to what the point before left).  The last point stores the accumulator into the output
  block, which is the whole 1 × 1 result array, so that array ends holding the sum of all 25 tile sums.  The host
  lines after the region reshape it to a scalar and add `0.0001 * ∑ θ²`.
-/
import proofs.«149009_j65575560675889_1_alg».proof.Proof.Pieces
import proofs.«149009_j65575560675889_1_alg».proof.Proof.KernelRow

set_option maxRecDepth 16384

noncomputable section

namespace Cert.KernelIdeal.Total

open Idealize.ShloMosaic Idealize.ShloMosaic.TcCoe Idealize.SL.Sem Cert.KernelIdeal Cert.KernelIdeal.Gen
open Idealize.ShloMosaic.ValueIdx Cert.LabelSpread
open Idealize.ShloMosaic.Pipeline (Dat)

variable (m : (ℓ : Loc nD τ sig) → Buf (Elt Ideal) ℓ) (ρ : Dev nD → PrngReg)

/-- The label array as the region finds it. -/
abbrev labels (c : Dev nD) : Vec Ideal S200000x256 .f32 := V m c main_arg0
/-- The weight row as the region finds it. -/
abbrev weights (c : Dev nD) : Vec Ideal S1x256 .f32 := V m c main_v10
/-- Tile `t`'s block of labels. -/
abbrev lblk (c : Dev nD) (t : Fin cfg0.N) : Vec Ideal S8000x256 .f32 := iblk m c 0 t
/-- The weight row's block (the same at every point). -/
abbrev wblk (c : Dev nD) (t : Fin cfg0.N) : Vec Ideal S1x256 .f32 := iblk m c 1 t

/-- Row `r` of tile `t` is row `r + 8000 t` of the array. -/
def rowOf (t : Fin 25) (r : Fin 8000) : Fin 200000 := ⟨r.val + 8000 * t.val, by have := t.isLt; have := r.isLt; omega⟩

/-- The label window's block index at point `t` is `(t, 0)`. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The weight window's block index is `(0, 0)` at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Entry `(r, k)` of tile `t` is entry `(r + 8000 t, k)` of the label array. -/
theorem lblk_apply (c : Dev nD) (t : Fin cfg0.N) (r : Fin 8000) (k : Fin 256) :
    lblk m c t (ix2 r k) = labels m c (ix2 (rowOf ⟨t.val, lt_of_lt_of_eq t.isLt N_0⟩ r) k) := by
  unfold lblk iblk
  rw [View.read_apply]
  show V m c main_arg0 _ = V m c main_arg0 _
  congr 1
  funext a
  apply Fin.ext
  match a with
  | ⟨0, _⟩ => show win0_0.index t 0 * 8000 + 1 * r.val = r.val + 8000 * t.val; rw [(idx0 t).1]; omega
  | ⟨1, _⟩ => show win0_0.index t 1 * 256 + 1 * k.val = k.val; rw [(idx0 t).2]; omega

/-- Entry `(0, k)` of the weight block is entry `(0, k)` of the weight row. -/
theorem wblk_apply (c : Dev nD) (t : Fin cfg0.N) (k : Fin 256) :
    wblk m c t (ix2 0 k) = weights m c (ix2 0 k) := by
  unfold wblk iblk
  rw [View.read_apply]
  show V m c main_v10 _ = V m c main_v10 _
  congr 1
  funext a
  apply Fin.ext
  match a with
  | ⟨0, _⟩ => show win0_1.index t 0 * 1 + 1 * 0 = 0; rw [(idx1 t).1]
  | ⟨1, _⟩ => show win0_1.index t 1 * 256 + 1 * k.val = k.val; rw [(idx1 t).2]; omega

/-- The sum of the row statistic over tile `t`'s 8000 rows. -/
def tile (c : Dev nD) (t : Fin 25) : EReal :=
  ∑ r : Fin 8000, spread (fun k => labels m c (ix2 (rowOf t r) k)) (fun k => weights m c (ix2 0 k))

/-- The body at point `t`, from an accumulator `acc`: the accumulator plus tile `t`'s sum. -/
theorem body_at (c : Dev nD) (t : Fin cfg0.N) (acc : Vec Ideal S1x1 .f32) :
    k0_pay1 (F := Ideal) (k0_pay3 (F := Ideal) (lblk m c t) (wblk m c t) acc) (ix2 0 0)
      = acc (ix2 0 0) + tile m c ⟨t.val, lt_of_lt_of_eq t.isLt N_0⟩ := by
  refine (Tile.pay3_at (lblk m c t) (wblk m c t) acc).trans ?_
  unfold tile
  simp only [lblk_apply, wblk_apply]

/-- Tile `j`'s sum for `j` below 25, zero beyond. -/
def tileN (c : Dev nD) (j : ℕ) : EReal := if h : j < 25 then tile m c ⟨j, h⟩ else 0

/-- The sum of the tiles up to and including `n`. -/
def upTo (c : Dev nD) (n : ℕ) : EReal := ∑ j ∈ Finset.range (n + 1), tileN m c j

/-- The value the first point stores into the accumulator is zero. -/
theorem reset_zero : k0_pay2 (F := Ideal) (ix2 0 0) = 0 := by
  unfold k0_pay2
  rw [shapeCast_self]
  exact Ideal.ofBits_zero_f32

/-- The first point: the accumulator is reset, so it ends at tile 0's sum. -/
theorem point_A (c : Dev nD) (t : Fin cfg0.N) (h0 : t.val % 25 = 0) (h1 : ¬t.val % 25 = 24) :
    (outsAt0 m c t.val t.isLt).2 (ix2 0 0) = tile m c ⟨t.val, lt_of_lt_of_eq t.isLt N_0⟩ := by
  rw [outsAt0_A m c t h0 h1]
  dsimp only
  refine (congrFun (Pieces.sout_A (F := Ideal) c (grid0.coords t) (ms0_0 t) (hs0_0 t) (ms0_1 t) (hs0_1 t)
    (ms0_2 t) (hs0_2 t) scM0_0 (Memref.isWhole_whole _) ((hcond0_0 t).mpr h0) (fun h => h1 ((hcond0_1 t).mp h)) (lblk m c t) (wblk m c t)) (ix2 0 0)).trans ?_
  refine (body_at m c t (k0_pay2 (F := Ideal))).trans ?_
  rw [reset_zero, zero_add]

/-- A middle point: the accumulator gains the point's tile. -/
theorem point_B (c : Dev nD) (t : Fin cfg0.N) (h0 : ¬t.val % 25 = 0) (h1 : ¬t.val % 25 = 24) :
    (outsAt0 m c t.val t.isLt).2 (ix2 0 0)
      = (outsAt0 m c (t.val - 1) (Nat.lt_of_le_of_lt (Nat.sub_le _ _) t.isLt)).2 (ix2 0 0) + tile m c ⟨t.val, lt_of_lt_of_eq t.isLt N_0⟩ := by
  rw [outsAt0_B m c t h0 h1]
  dsimp only
  refine (congrFun (Pieces.sout_B (F := Ideal) c (grid0.coords t) (ms0_0 t) (hs0_0 t) (ms0_1 t) (hs0_1 t)
    (ms0_2 t) (hs0_2 t) scM0_0 (Memref.isWhole_whole _) (fun h => h0 ((hcond0_0 t).mp h)) (fun h => h1 ((hcond0_1 t).mp h)) (lblk m c t) (wblk m c t)
    (outsAt0 m c (t.val - 1) (Nat.lt_of_le_of_lt (Nat.sub_le _ _) t.isLt)).2) (ix2 0 0)).trans ?_
  exact body_at m c t _

/-- The last point: the accumulator gains the last tile, -/
theorem point_C (c : Dev nD) (t : Fin cfg0.N) (h0 : ¬t.val % 25 = 0) (h1 : t.val % 25 = 24) :
    (outsAt0 m c t.val t.isLt).2 (ix2 0 0)
      = (outsAt0 m c (t.val - 1) (Nat.lt_of_le_of_lt (Nat.sub_le _ _) t.isLt)).2 (ix2 0 0) + tile m c ⟨t.val, lt_of_lt_of_eq t.isLt N_0⟩ := by
  rw [outsAt0_C m c t h0 h1]
  dsimp only
  refine (congrFun (Pieces.sout_C (F := Ideal) c (grid0.coords t) (ms0_0 t) (hs0_0 t) (ms0_1 t) (hs0_1 t)
    (ms0_2 t) (hs0_2 t) scM0_0 (Memref.isWhole_whole _) (fun h => h0 ((hcond0_0 t).mp h)) ((hcond0_1 t).mpr h1) (lblk m c t) (wblk m c t)
    (outsAt0 m c (t.val - 1) (Nat.lt_of_le_of_lt (Nat.sub_le _ _) t.isLt)).2) (ix2 0 0)).trans ?_
  exact body_at m c t _

/-- and the output block is stored with the same value. -/
theorem point_C_out (c : Dev nD) (t : Fin cfg0.N) (h0 : ¬t.val % 25 = 0) (h1 : t.val % 25 = 24) :
    (outsAt0 m c t.val t.isLt).1 (ix2 0 0)
      = (outsAt0 m c (t.val - 1) (Nat.lt_of_le_of_lt (Nat.sub_le _ _) t.isLt)).2 (ix2 0 0) + tile m c ⟨t.val, lt_of_lt_of_eq t.isLt N_0⟩ := by
  rw [outsAt0_C m c t h0 h1]
  dsimp only
  refine (congrFun (Pieces.out_C (F := Ideal) c (grid0.coords t) (ms0_0 t) (hs0_0 t) (ms0_1 t) (hs0_1 t)
    (ms0_2 t) (hs0_2 t) scM0_0 (Memref.isWhole_whole _) (fun h => h0 ((hcond0_0 t).mp h)) ((hcond0_1 t).mpr h1) (lblk m c t) (wblk m c t)
    (outsAt0 m c (t.val - 1) (Nat.lt_of_le_of_lt (Nat.sub_le _ _) t.isLt)).2) (ix2 0 0)).trans ?_
  exact body_at m c t _

/-- The partial sums grow by one tile at a time. -/
theorem upTo_succ (c : Dev nD) (n : ℕ) (h : n + 1 < 25) : upTo m c (n + 1) = upTo m c n + tile m c ⟨n + 1, h⟩ := by
  unfold upTo
  rw [Finset.sum_range_succ _ (n + 1)]
  congr 1
  unfold tileN
  rw [dif_pos h]

/-- THE ACCUMULATION: after point `n` the carried accumulator holds the sum of tiles `0 … n`. -/
theorem acc_eq (c : Dev nD) : ∀ (n : ℕ) (h : n < cfg0.N), (outsAt0 m c n h).2 (ix2 0 0) = upTo m c n
  | 0, h => by
    refine (point_A m c ⟨0, h⟩ rfl (by dsimp only; omega)).trans ?_
    unfold upTo tileN
    rw [Finset.sum_range_one, dif_pos (by decide)]
  | n + 1, h => by
    have hN : cfg0.N = 25 := N_0
    have h0 : ¬(⟨n + 1, h⟩ : Fin cfg0.N).val % 25 = 0 := by dsimp only; omega
    by_cases h1 : (⟨n + 1, h⟩ : Fin cfg0.N).val % 25 = 24
    · refine (point_C m c ⟨n + 1, h⟩ h0 h1).trans ?_
      show (outsAt0 m c n _).2 (ix2 0 0) + _ = _
      rw [acc_eq c n, upTo_succ m c n (lt_of_lt_of_eq h N_0)]
    · refine (point_B m c ⟨n + 1, h⟩ h0 h1).trans ?_
      show (outsAt0 m c n _).2 (ix2 0 0) + _ = _
      rw [acc_eq c n, upTo_succ m c n (lt_of_lt_of_eq h N_0)]

/-- The sum of all 25 tiles. -/
def grand (c : Dev nD) : EReal := ∑ t : Fin 25, tile m c t

/-- The partial sum through the last tile is the sum over all tiles. -/
theorem upTo_last (c : Dev nD) : upTo m c 24 = grand m c := by
  show ∑ j ∈ Finset.range 25, tileN m c j = ∑ t : Fin 25, tile m c t
  rw [Finset.sum_range (fun j => tileN m c j)]
  refine Finset.sum_congr rfl fun i _ => ?_
  unfold tileN
  rw [dif_pos i.isLt]

/-- The last point. -/
abbrev tLast : Fin cfg0.N := ⟨24, by rw [show cfg0.N = 25 from N_0]; decide⟩

/-- What the result array ends holding: at its one index, the sum of all tiles. -/
abbrev outArr (c : Dev nD) : Buf (Elt Ideal) ((c : Thread nD τ).loc main_v11) := fun _ => grand m c

/-- At the last point the output block is stored with the sum of all tiles. -/
theorem out_last (c : Dev nD) (t : Fin cfg0.N) (h24 : t.val % 25 = 24) :
    (outsAt0 m c t.val t.isLt).1 = fun _ => grand m c := by
  have hN : cfg0.N = 25 := N_0
  have h0 : ¬t.val % 25 = 0 := by omega
  funext j
  obtain rfl : j = ix2 0 0 := by
    funext a
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
  rw [point_C_out m c t h0 h24, acc_eq m c (t.val - 1)]
  obtain ⟨n, hn⟩ := t
  have h : n = 24 := by dsimp only at h24; omega
  subst h
  exact (upTo_succ m c 23 (by decide)).symm.trans (upTo_last m c)

/-- The one write-back, at the last point, writes the sum of all tiles: the block is the whole array. -/
theorem flushed_eq (c : Dev nD) (t : Fin cfg0.N) (hf : (cfg0.win 2).flush t = true) :
    (dats m 0 c).flushed 2 t = ((cfg0.win 2).blk t).view.read (Elt Ideal) (outArr m c) := by
  have h24 := (flush0_2 t).mp hf
  show (cfg0.win 2).cut (grid0.coords t) ((dats m 0 c).after 2 t) = _
  rw [after0_2, out_last m c t h24]
  funext j
  rw [View.read_apply]
  rfl

/-- The one write-back covers the 1 × 1 array, so it ends holding the sum of all tiles. -/
theorem final_out (c : Dev nD) : (dats m 0 c).arrAt 2 cfg0.N = outArr m c :=
  (dats m 0 c).arrAt_eq_of_cover 2 (outArr m c) (flushed_eq m c) fun i =>
    ⟨tLast, (flush0_2 tLast).mpr rfl, by
      show i ∈ ((View.whole main_v11).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The program's result: the sum of all tiles, plus the small multiple of the sum of the squared parameters that
    the host lines after the region add. -/
def result (c : Dev nD) : Buf (Elt Ideal) ((c : Thread nD τ).loc main_v16) :=
  addf (shapeCast S_ (outArr m c) shapeCasts_S1x1_S_)
    (mulf (constant (F := Ideal) S_ .f32 0x38D1B717#32)
      (Host.reduceAdd (mulf (m ((c : Thread nD τ).loc main_arg1)) (m ((c : Thread nD τ).loc main_arg1)))
        (constant (F := Ideal) S_ .f32 0x00000000#32) reducesTo_S256_S_d0 h_S_))

/-- The host lines after the region, read back: the reshape of the result array plus the parameter term. -/
theorem tail_eq (c : Dev nD) : Pipeline.afterTail₀ cfgs (dats m) 0 (V0 m) [hostOps1] c main_v16 = result m c := by
  unfold Pipeline.afterTail₀
  show StableHlo.after hostOps1 _ (Proc.devRef .tc main_v16) = _
  after_results
  have hv11 : Pipeline.withArrays (cfgs 0).spec c (V0 m c) (fun w => (dats m 0 c).arrAt w (cfgs 0).N) (Proc.devRef .tc main_v11) = outArr m c :=
    (Pipeline.withArrays_arr spec0 launch0.win.arr_inj c _ _ 2).trans (final_out m c)
  have harg1 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  rw [hv11, harg1]
  rfl

/-- THE KERNEL'S RUN, READ: every weakly fair execution terminates with the result buffer at `result` and both
    arguments as launched. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v16 (Pipeline.mem_restRefs_of main_v16 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Total

end
-- ==== Proof.RefTotal.lean ====
/-
  The reference's total, read index by index.

  The reference computes the same per-row statistic over the whole 200000 × 256 array at once: the mask `Y ≠ -1`, the
  count of each row as an INTEGER sum of the widened mask bits converted to a float afterwards, the masked products
  with the weights broadcast down the rows, the masked mean and the mean squared deviation, zero for a row with no
  present label; then it sums the 200000 per-row values.  The integer count of a row is the number of its present
  labels (at most 256, so the 32-bit sum does not wrap and its signed reading is its value), which makes each row's
  value the row statistic `spread`, and the total their sum over the rows.
-/
import proofs.«149009_j65575560675889_1_alg».proof.Proof.RefRead
import proofs.«149009_j65575560675889_1_alg».proof.Proof.LabelSpread
import Idealize.ShloMosaic.Lib.ValueIdx
import Idealize.ShloMosaic.Lib.ValueIdxRank1
import Idealize.ShloMosaic.Lib.StableHlo.Predicate

noncomputable section

namespace Cert.ReferenceIdeal.RefTotal

open Idealize.ShloMosaic Idealize.ShloMosaic.ValueIdx Cert.ReferenceIdeal Cert.ReferenceIdeal.ReadP Cert.LabelSpread

variable (Y : (⟨S200000x256, .f32⟩ : BufTy).Contents (Elt Ideal)) (θ : (⟨S256, .f32⟩ : BufTy).Contents (Elt Ideal))

/-- The row a rank-1 index of the 200000 rows names. -/
def rowIdx (j : S200000.Idx) : Fin 200000 := j 0

/-- Two spellings of the index `(p, q)` of a rectangle. -/
theorem ij_eq_ix2 {n m : ℕ} (p : Fin n) (q : Fin m) : StableHlo.Predicate.ij p q = ix2 p q := by
  funext a; match a with | ⟨0, _⟩ => rfl | ⟨1, _⟩ => rfl

/-- The presence bit the reference computes at `(n, k)`. -/
theorem mask_apply (i : S200000x256.Idx) : val_main_v11 (F := Ideal) Y i = present (Y i) := by
  rw [val_main_v11_apply, val_main_v10_apply, val_main_cst_3_apply]
  rfl

/-- The reference's count of row `j`: the integer sum of the widened bits, converted, is the number of present labels. -/
theorem ref_count (j : S200000.Idx) : val_main_v14 (F := Ideal) Y j = count (fun k => Y (ix2 (rowIdx j) k)) := by
  rw [val_main_v14_apply]
  show (((val_main_v13 (F := Ideal) Y j).toInt : ℝ) : EReal) = _
  refine word_count _ _ ?_ ?_
  · unfold val_main_v13 val_main_v12 val_main_c
    rw [StableHlo.Predicate.toNat_reduce_count_cols (by norm_num)]
    unfold labelled
    refine congrArg Finset.card (Finset.filter_congr fun q _ => ?_)
    exact Eq.congr_left ((congrArg (val_main_v11 (F := Ideal) Y) (ij_eq_ix2 (rowIdx j) q)).trans (mask_apply Y _))
  · unfold labelled
    exact lt_of_le_of_lt (Finset.card_filter_le _ _) (by simp)

/-- The weight the reference multiplies column `k` by. -/
theorem weight_apply (i : S200000x256.Idx) : val_main_v19 (F := Ideal) θ i = val_main_v9 (F := Ideal) θ (ix1 (i 1)) := by
  rw [val_main_v19_apply, val_main_v18_apply]
  refine congrArg (val_main_v9 (F := Ideal) θ) (funext fun a => ?_)
  match a with
  | ⟨0, _⟩ => rfl

/-- The index the first row sum reads at `(j, k)`. -/
theorem idx_row (j : S200000.Idx) (k : Fin 256) : idx_main_v22 j k = ix2 (rowIdx j) k := by
  funext a; match a with | ⟨0, _⟩ => rfl | ⟨1, _⟩ => rfl

/-- The index the second row sum reads at `(j, k)`. -/
theorem idx_row' (j : S200000.Idx) (k : Fin 256) : idx_main_v29 j k = ix2 (rowIdx j) k := by
  funext a; match a with | ⟨0, _⟩ => rfl | ⟨1, _⟩ => rfl

/-- Broadcasting the per-row mean over the columns and reading it at `(j, k)` reads row `j`'s mean. -/
theorem idx_back (j : S200000.Idx) (k : Fin 256) : idx_main_v24 (idx_main_v25 (ix2 (rowIdx j) k)) = j := by
  funext a; match a with | ⟨0, _⟩ => rfl

/-- The reference's per-row value is the row statistic. -/
theorem ref_row (j : S200000.Idx) :
    val_main_v33 (F := Ideal) Y θ j = spread (fun k => Y (ix2 (rowIdx j) k)) (fun k => val_main_v9 (F := Ideal) θ (ix1 k)) := by
  unfold spread
  rw [← ref_count Y j]
  unfold spreadOf
  simp only [val_main_v33_apply, val_main_v32_apply, val_main_v31_apply, val_main_cst_10_apply, val_main_call3_v1_apply, val_main_call3_v0_apply, val_main_cst_11_apply,
    val_main_v30_apply, val_main_v29_apply, val_main_cst_9_apply, idx_row', val_main_v28_apply, val_main_v27_apply, val_main_call2_v1_apply, val_main_call2_v0_apply, val_main_cst_8_apply,
    val_main_v26_apply, val_main_v25_apply, val_main_v24_apply, idx_back, val_main_v23_apply, val_main_v22_apply, val_main_cst_7_apply, idx_row, val_main_v21_apply, val_main_call1_v1_apply, val_main_call1_v0_apply, val_main_cst_6_apply, val_main_v20_apply, weight_apply, mask_apply,
    val_main_v17_apply, val_main_v16_apply, val_main_v15_apply, val_main_cst_4_apply, val_main_call0_v1_apply, val_main_call0_v0_apply, val_main_cst_5_apply,
    Ideal.ofBits_def, Ideal.ofBits_zero_f32, zero_add]
  rfl

/-- THE REFERENCE'S TOTAL: the sum over all 200000 rows of the row statistic. -/
theorem ref_total (i : S_.Idx) :
    val_main_v34 (F := Ideal) Y θ i
      = ∑ n : Fin 200000, spread (fun k => Y (ix2 n k)) (fun k => val_main_v9 (F := Ideal) θ (ix1 k)) := by
  rw [val_main_v34_apply, val_main_cst_12_apply, Ideal.ofBits_def, Ideal.ofBits_zero_f32, zero_add]
  simp only [ref_row]
  exact Equiv.sum_comp (idxEquiv1 (n := 200000)) (fun n => spread (fun k => Y (ix2 n k)) (fun k => val_main_v9 (F := Ideal) θ (ix1 k)))

end Cert.ReferenceIdeal.RefTotal

end
-- ==== Proof.Bridge.lean ====
/-
  The kernel's closed term and the reference's are one function of the arguments.

  Both programs compute the weights `1 - 1 / (1 + exp (-(θ - 5)))` on the host with the same operations, so the weight
  row the kernel's region finds is the reference's weight vector laid out as one row.  The reference's total over
  200000 rows is, tile by tile, the sum over 25 tiles of the sum over each tile's 8000 rows — addition of extended
  reals is commutative and associative, so no finiteness is used — and that is the kernel's sum of tile sums.  Both
  then add the same `0.0001 * ∑ θ²`.
-/
import proofs.«149009_j65575560675889_1_alg».proof.Proof.KernelTotal
import proofs.«149009_j65575560675889_1_alg».proof.Proof.RefTotal
import Idealize.ShloMosaic.Lib.ValueLayout

set_option maxRecDepth 16384

noncomputable section

namespace Cert.Bridge

open Idealize.ShloMosaic Idealize.ShloMosaic.TcCoe Idealize.SL.Sem Idealize.ShloMosaic.ValueIdx Cert.LabelSpread
open Cert.KernelIdeal.Total (labels weights tile grand outArr rowOf result)

variable (m : (ℓ : Loc Cert.KernelIdeal.nD Cert.KernelIdeal.τ Cert.KernelIdeal.sig) → Buf (Elt Ideal) ℓ)

/-- The weight row the region finds is the host's `1 - 1 / (1 + exp (-(θ - 5)))`, laid out as one row. -/
theorem weights_eq (c : Dev Cert.KernelIdeal.nD) (k : Fin 256) :
    weights m c (ix2 0 k)
      = Cert.ReferenceIdeal.ReadP.val_main_v9 (F := Ideal) (m ((c.tc : Thread Cert.KernelIdeal.nD Cert.KernelIdeal.τ).loc Cert.KernelIdeal.main_arg1)) (ix1 k) := by
  have e : (Cert.KernelIdeal.Gen.V m c Cert.KernelIdeal.main_v10 : Cert.KernelIdeal.S1x256.Idx → EReal)
      = shapeCast Cert.KernelIdeal.S1x256
          (Cert.ReferenceIdeal.ReadP.val_main_v9 (F := Ideal) (m ((c.tc : Thread Cert.KernelIdeal.nD Cert.KernelIdeal.τ).loc Cert.KernelIdeal.main_arg1)))
          Cert.KernelIdeal.Facts₀.shapeCasts_S256_S1x256 := by
    show StableHlo.after Cert.KernelIdeal.Gen.hostOps0 (fun b => m (c, b)) (Proc.devRef .tc Cert.KernelIdeal.main_v10) = _
    after_results
    rfl
  show Cert.KernelIdeal.Gen.V m c Cert.KernelIdeal.main_v10 (ix2 0 k) = _
  rw [e]
  exact shapeCast_a_1a_apply _ _ 0 k

/-- THE TWO RESULTS ARE ONE: from arguments that agree, the reference's result term is the kernel's result. Both
    add the same multiple of the sum of the squared parameters; the reference's total over 200000 rows, taken tile by
    tile, is the sum of the kernel's 25 tile sums, row `r` of tile `t` being row `r + 8000 t`; the label array and
    the weight row are the arguments' on both sides. -/
theorem result_eq (c : Dev Cert.KernelIdeal.nD)
    (m' : (ℓ : Loc Cert.ReferenceIdeal.nD Cert.ReferenceIdeal.τ Cert.ReferenceIdeal.sig) → Buf (Elt Ideal) ℓ)
    (hY : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (hθ : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.ValueP.res_main_v38 m' c = result m c := by
  rw [Cert.ReferenceIdeal.ReadP.val_main_v38_eq, hY, hθ]
  funext i
  rw [Cert.ReferenceIdeal.ReadP.val_main_v38_apply]
  unfold result
  refine congrArg₂ (fun a b : EReal => a + b) ?_ rfl
  rw [Cert.ReferenceIdeal.RefTotal.ref_total]
  show _ = grand m c
  unfold grand tile
  rw [sum_rows_by_tile 25 8000]
  refine Finset.sum_congr rfl fun t _ => Finset.sum_congr rfl fun r _ => ?_
  refine congrArg₂ (spread (n := 256)) (funext fun k => ?_) (funext fun k => (weights_eq m c k).symm)
  show _ = Cert.KernelIdeal.Gen.V m c Cert.KernelIdeal.main_arg0 (ix2 (rowOf t r) k)
  rw [Cert.KernelIdeal.Gen.V_main_arg0 m c]
  rfl

end Cert.Bridge

end
-- ==== Proof.lean ====
/-
  The certificate's claims for the masked per-row variance kernel against its jnp reference.

  The kernel streams the 200000 × 256 label array in 25 tiles of 8000 rows, computes for each row the mean squared
  deviation of its present (non `-1`) weighted labels, sums the rows of a tile and accumulates the tile sums in a
  carried scratch cell that the last grid point copies to the 1 × 1 result; the host adds `0.0001 * ∑ θ²`.  The
  reference computes the same statistic on the whole array and sums all rows.

  * The frames of the word-level kernel and of its idealization are the generated frame certificates; the reference's
    frame is its run with the result dropped.
  * The ideal pass rewrote nothing, so `preserves` is `True`.
  * At the ideal instance the kernel's result is a closed term of its arguments (the sum of the 25 tile sums plus the
    parameter term), the reference's run ends at its composed term, and the two terms are equal for arguments that
    agree: the integer count of a row and the float sum of its mask bits are both the number of present labels, and
    a sum over 200000 rows is the sum over 25 tiles of 8000 rows.  No step needs the inputs finite.
-/
import proofs.«149009_j65575560675889_1_alg».proof.Defs
import proofs.«149009_j65575560675889_1_alg».proof.Proof.Gen.Kernel
import proofs.«149009_j65575560675889_1_alg».proof.Proof.Gen.Kernel.Skeleton
import proofs.«149009_j65575560675889_1_alg».proof.Proof.Gen.Kernel.Launch
import proofs.«149009_j65575560675889_1_alg».proof.Proof.Gen.Kernel.Points
import proofs.«149009_j65575560675889_1_alg».proof.Proof.Gen.Kernel.Frame
import proofs.«149009_j65575560675889_1_alg».proof.Proof.Gen.KernelIdeal
import proofs.«149009_j65575560675889_1_alg».proof.Proof.Gen.KernelIdeal.Skeleton
import proofs.«149009_j65575560675889_1_alg».proof.Proof.Gen.KernelIdeal.Launch
import proofs.«149009_j65575560675889_1_alg».proof.Proof.Gen.KernelIdeal.Points
import proofs.«149009_j65575560675889_1_alg».proof.Proof.Gen.KernelIdeal.Frame
import proofs.«149009_j65575560675889_1_alg».proof.Proof.Gen.ReferenceIdeal
import proofs.«149009_j65575560675889_1_alg».proof.Proof.RefRun
import proofs.«149009_j65575560675889_1_alg».proof.Proof.RefRead
import proofs.«149009_j65575560675889_1_alg».proof.Proof.Gen.Pre_finite_inputs
import Idealize.ShloMosaic.Adequacy
import Idealize.ShloMosaic.Init
import proofs.«149009_j65575560675889_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the statement about the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs run; the kernel's result buffer ends at its closed term, the reference's at its composed term, and
    for arguments that agree these are one value. -/
theorem algebraic : Cert.algebraic_KernelIdeal_ReferenceIdeal := by
  intro m ρ m' ρ' _ hagree
  refine ⟨fun c => Cert.KernelIdeal.Total.result m c, Cert.KernelIdeal.Total.run m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m c m' (hagree c).1 (hagree c).2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
